-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S6400000 : Shape := ⟨1, ![6400000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_v10 : IVec S_ 1) (main_v15 : IVec S6400000 1) (main_c_5 : IVec S_ 1) : IVec S_ 1 :=
  let main_v16 : IVec S_ 1 := (fun x v => Host.reduce IntOp.andi x v reducesTo_S6400000_S_d0 h_S_) main_v15 main_c_5
  let main_v17 : IVec S_ 1 := andi main_v10 main_v16
  main_v17

def fn {F : FTy → Type} [FloatOps F] (main_arg0 : FVec F S100000x3 .f32) (main_arg1 : IVec S6400000 32) (main_arg2 : IVec S6400000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_c_0 : IVec S_ 32 := constantI S_ 32 4294867296#32
  let main_v4 : IVec S6400000 32 := broadcastInDim S6400000 ![] bcast_S_S6400000 main_c_0
  let main_v5 : IVec S6400000 1 := cmpi .sge main_arg1 main_v4
  let main_c_1 : IVec S_ 32 := constantI S_ 32 100000#32
  let main_v6 : IVec S6400000 32 := broadcastInDim S6400000 ![] bcast_S_S6400000 main_c_1
  let main_v7 : IVec S6400000 1 := cmpi .slt main_arg1 main_v6
  let main_v8 : IVec S6400000 1 := andi main_v5 main_v7
  let main_c_2 : IVec S_ 1 := constantI S_ 1 1#1
  let main_v9 : IVec S_ 1 := (fun x v => Host.reduce IntOp.andi x v reducesTo_S6400000_S_d0 h_S_) main_v8 main_c_2
  let main_v10 : IVec S_ 1 := andi main_v3 main_v9
  let main_c_3 : IVec S_ 32 := constantI S_ 32 4294867296#32
  let main_v11 : IVec S6400000 32 := broadcastInDim S6400000 ![] bcast_S_S6400000 main_c_3
  let main_v12 : IVec S6400000 1 := cmpi .sge main_arg2 main_v11
  let main_c_4 : IVec S_ 32 := constantI S_ 32 100000#32
  let main_v13 : IVec S6400000 32 := broadcastInDim S6400000 ![] bcast_S_S6400000 main_c_4
  let main_v14 : IVec S6400000 1 := cmpi .slt main_arg2 main_v13
  let main_v15 : IVec S6400000 1 := andi main_v12 main_v14
  let main_c_5 : IVec S_ 1 := constantI S_ 1 1#1
  fn_part1 (F := F) main_v10 main_v15 main_c_5
-- ==== Kernel.lean ====
abbrev S100000x3 : Shape := ⟨2, ![100000, 3]⟩
abbrev S6400000 : Shape := ⟨1, ![6400000]⟩
abbrev S3x100000 : Shape := ⟨2, ![3, 100000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S3x6400000 : Shape := ⟨2, ![3, 6400000]⟩
abbrev S1x6400000 : Shape := ⟨2, ![1, 6400000]⟩
abbrev S3x160000 : Shape := ⟨2, ![3, 160000]⟩
abbrev S1x160000 : Shape := ⟨2, ![1, 160000]⟩

abbrev nBuf : Space → Nat
  | .hbm => 52
  | .vmem => 6
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S3x100000, .f32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S1, .i32⟩
  | .hbm, ⟨13, _⟩ => ⟨S_, .i32⟩
  | .hbm, ⟨14, _⟩ => ⟨S6400000x1, .i32⟩
  | .hbm, ⟨15, _⟩ => ⟨S6400000x1, .i1⟩
  | .hbm, ⟨16, _⟩ => ⟨S1x1, .i32⟩
  | .hbm, ⟨17, _⟩ => ⟨S6400000x1, .i32⟩
  | .hbm, ⟨18, _⟩ => ⟨S6400000x1, .i1⟩
  | .hbm, ⟨19, _⟩ => ⟨S6400000x1, .i1⟩
  | .hbm, ⟨20, _⟩ => ⟨S_, .i1⟩
  | .hbm, ⟨21, _⟩ => ⟨S6400000, .i1⟩
  | .hbm, ⟨22, _⟩ => ⟨S3x6400000, .f32⟩
  | .hbm, ⟨23, _⟩ => ⟨S3x6400000, .i1⟩
  | .hbm, ⟨24, _⟩ => ⟨S_, .f32⟩
  | .hbm, ⟨25, _⟩ => ⟨S3x6400000, .f32⟩
  | .hbm, ⟨26, _⟩ => ⟨S3x6400000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S1, .i32⟩
  | .hbm, ⟨36, _⟩ => ⟨S_, .i32⟩
  | .hbm, ⟨37, _⟩ => ⟨S6400000x1, .i32⟩
  | .hbm, ⟨38, _⟩ => ⟨S6400000x1, .i1⟩
  | .hbm, ⟨39, _⟩ => ⟨S1x1, .i32⟩
  | .hbm, ⟨40, _⟩ => ⟨S6400000x1, .i32⟩
  | .hbm, ⟨41, _⟩ => ⟨S6400000x1, .i1⟩
  | .hbm, ⟨42, _⟩ => ⟨S6400000x1, .i1⟩
  | .hbm, ⟨43, _⟩ => ⟨S_, .i1⟩
  | .hbm, ⟨44, _⟩ => ⟨S6400000, .i1⟩
  | .hbm, ⟨45, _⟩ => ⟨S3x6400000, .f32⟩
  | .hbm, ⟨46, _⟩ => ⟨S3x6400000, .i1⟩
  | .hbm, ⟨47, _⟩ => ⟨S_, .f32⟩
  | .hbm, ⟨48, _⟩ => ⟨S3x6400000, .f32⟩
  | .hbm, ⟨49, _⟩ => ⟨S3x6400000, .f32⟩
  | .hbm, ⟨50, _⟩ => ⟨S1x6400000, .f32⟩
  | .hbm, ⟨51, _⟩ => ⟨S6400000, .f32⟩
  | .local _ .vmem, ⟨0, _⟩ => ⟨S3x160000, .f32⟩
  | .local _ .vmem, ⟨1, _⟩ => ⟨S3x160000, .f32⟩
  | .local _ .vmem, ⟨2, _⟩ => ⟨S3x160000, .f32⟩
  | .local _ .vmem, ⟨3, _⟩ => ⟨S3x160000, .f32⟩
  | .local _ .vmem, ⟨4, _⟩ => ⟨S1x160000, .f32⟩
  | .local _ .vmem, ⟨5, _⟩ => ⟨S1x160000, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x3_S3x100000_1_0 : S100000x3.Transposes [1, 0] S3x100000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S3x6400000_1 : S6400000.BroadcastsInDim S3x6400000 (![1] : Fin 1 → Fin S3x6400000.rank)
  bcast_S_S3x6400000 : S_.BroadcastsInDim S3x6400000 (![] : Fin 0 → Fin S3x6400000.rank)
  inb_S3x160000_S3x160000_0_0 : ∀ a, (![0, 0] : Fin 2 → Nat) a + S3x160000.size a ≤ S3x160000.size a
  h_S3x160000 : 0 < S3x160000.numel
  shapeCasts_S3x160000_S3x160000 : S3x160000.ShapeCasts S3x160000
  slices_S3x160000_o0_0_S1x160000 : S3x160000.Slices ![0, 0] S1x160000
  slices_S3x160000_o1_0_S1x160000 : S3x160000.Slices ![1, 0] S1x160000
  slices_S3x160000_o2_0_S1x160000 : S3x160000.Slices ![2, 0] S1x160000
  inb_S1x160000_S1x160000_0_0 : ∀ a, (![0, 0] : Fin 2 → Nat) a + S1x160000.size a ≤ S1x160000.size a
  h_S1x160000 : 0 < S1x160000.numel
  shapeCasts_S1x6400000_S6400000 : S1x6400000.ShapeCasts S6400000
  gather_S3x100000_S6400000x1_S3x6400000_0_1_n_n_1_1_31_wf : GatherDims.WF S3x100000 S6400000x1 S3x6400000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x160000.size a ≤ S3x6400000.size a
  hwx0_0 : ∀ i : grid0.Coords, EltTy.bits .f32 = 32 ∨ (Rect.block (s := S3x6400000) S3x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x160000.size a ≤ S3x6400000.size a
  hwx0_1 : ∀ i : grid0.Coords, EltTy.bits .f32 = 32 ∨ (Rect.block (s := S3x6400000) S3x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x6400000.size a
  hwx0_2 : ∀ i : grid0.Coords, EltTy.bits .f32 = 32 ∨ (Rect.block (s := S1x6400000) S1x160000.size (cc0_transform_2 i) (hinb0_2 i)).WholeWords (EltTy.packing .f32)

variable [Facts₀]

def gather_S3x100000_S6400000x1_S3x6400000_0_1_n_n_1_1_31 : GatherDims S3x100000 S6400000x1 S3x6400000 where
  offsetDims := [0]
  collapsedSliceDims := [1]
  operandBatchingDims := []
  startIndicesBatchingDims := []
  startIndexMap := [1]
  indexVectorDim := 1
  sliceSizes := ![3, 1]
  wf := gather_S3x100000_S6400000x1_S3x6400000_0_1_n_n_1_1_31_wf

abbrev win0_0 : Pipeline.Window sig grid0 :=
  Pipeline.Window.ofSpec (Memref.whole main_v1) S3x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x160000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x3 : Shape := ⟨2, ![100000, 3]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩

abbrev nBuf : Space → Nat
  | .hbm => 26
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S6400000, .i32⟩
  | .hbm, ⟨2, _⟩ => ⟨S6400000, .i32⟩
  | .hbm, ⟨3, _⟩ => ⟨S_, .i32⟩
  | .hbm, ⟨4, _⟩ => ⟨S6400000, .i32⟩
  | .hbm, ⟨5, _⟩ => ⟨S6400000, .i1⟩
  | .hbm, ⟨6, _⟩ => ⟨S_, .i32⟩
  | .hbm, ⟨7, _⟩ => ⟨S6400000, .i32⟩
  | .hbm, ⟨8, _⟩ => ⟨S6400000, .i32⟩
  | .hbm, ⟨9, _⟩ => ⟨S6400000, .i32⟩
  | .hbm, ⟨10, _⟩ => ⟨S6400000x1, .i32⟩
  | .hbm, ⟨11, _⟩ => ⟨S6400000x3, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x3, .f32⟩
  | .hbm, ⟨21, _⟩ => ⟨S6400000x3, .f32⟩
  | .hbm, ⟨22, _⟩ => ⟨S6400000x3, .f32⟩
  | .hbm, ⟨23, _⟩ => ⟨S_, .f32⟩
  | .hbm, ⟨24, _⟩ => ⟨S6400000, .f32⟩
  | .hbm, ⟨25, _⟩ => ⟨S6400000, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  gather_S100000x3_S6400000x1_S6400000x3_1_0_n_n_0_1_13_wf : GatherDims.WF S100000x3 S6400000x1 S6400000x3 [1] [0] [] [0] [] 1 ![1, 3]

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf

class Facts : Prop extends Facts₀ where

variable [Facts]
-- ==== Proof.WrapIndex.lean ====
/-
  A row number as numpy reads it. A table of 100000 rows is indexed by a 32-bit word read signed: a negative word
  counts from the back, so 100000 is added to it; a nonnegative one is kept. A word names a row when, read signed,
  it lies in [-100000, 100000). For such a word the wrapped word lies in [0, 99999]: the two range tests a filling
  take makes of it both pass, and read unsigned it is a row number below 100000.
-/
import Idealize.ShloMosaic.Lib.Affine

namespace Cert.EdgeLength

open Idealize.ShloMosaic

/-- The wrapped row word: 100000 added to a word that reads negative, the word itself otherwise. -/
def wrap (v : BitVec 32) : BitVec 32 :=
  Scalar.select (IntOp.cmpi .slt v 0#32) (IntOp.addi v 100000#32) v

/-- The word names a row, counted from the front or from the back. -/
def NamesRow (v : BitVec 32) : Prop := (-100000 : ℤ) ≤ v.toInt ∧ v.toInt < 100000

/-- The two comparisons the domain states of a word, read as a range of its signed value. -/
theorem namesRow_of_cmp {v : BitVec 32} (h1 : IntOp.cmpi .sge v 4294867296#32 = 1#1)
    (h2 : IntOp.cmpi .slt v 100000#32 = 1#1) : NamesRow v := by
  rw [IntOp.cmpi_sge] at h1
  rw [IntOp.cmpi_slt] at h2
  have e1 : (4294867296#32 : BitVec 32).toInt = -100000 := by decide
  have e2 : (100000#32 : BitVec 32).toInt = 100000 := by decide
  rw [e1] at h1
  rw [e2] at h2
  exact ⟨h1, h2⟩

/-- A select whose condition word is 1 is its first branch. -/
theorem select_of_one {α : Type} {c : BitVec 1} (h : c = 1#1) (a b : α) : Scalar.select c a b = a := by
  subst h; rfl

/-- A select whose condition word is not 1 is its second branch. -/
theorem select_of_ne_one {α : Type} {c : BitVec 1} (h : ¬ c = 1#1) (a b : α) : Scalar.select c a b = b := by
  unfold Scalar.select
  exact if_neg h

/-- The wrapped word of a word that names a row reads, signed, a row number. -/
theorem wrap_toInt {v : BitVec 32} (h : NamesRow v) : 0 ≤ (wrap v).toInt ∧ (wrap v).toInt ≤ 99999 := by
  obtain ⟨hlo, hhi⟩ := h
  have e0 : (0#32 : BitVec 32).toInt = 0 := by decide
  have e2 : (100000#32 : BitVec 32).toInt = 100000 := by decide
  unfold wrap
  by_cases hneg : v.toInt < 0
  · have hc : IntOp.cmpi .slt v 0#32 = 1#1 := IntOp.cmpi_slt.2 (by rw [e0]; exact hneg)
    rw [select_of_one hc]
    show 0 ≤ (v + 100000#32).toInt ∧ (v + 100000#32).toInt ≤ 99999
    rw [BitVec.toInt_add, e2, Int.bmod_eq_of_le (by omega) (by omega)]
    omega
  · have hc : ¬ IntOp.cmpi .slt v 0#32 = 1#1 := fun hc => hneg (by have := IntOp.cmpi_slt.1 hc; rwa [e0] at this)
    rw [select_of_ne_one hc]
    omega

/-- It passes the lower range test of a filling take. -/
theorem wrap_sge {v : BitVec 32} (h : NamesRow v) : IntOp.cmpi .sge (wrap v) 0#32 = 1#1 := by
  rw [IntOp.cmpi_sge, show (0#32 : BitVec 32).toInt = 0 from by decide]
  exact (wrap_toInt h).1

/-- It passes the upper range test of a filling take. -/
theorem wrap_sle {v : BitVec 32} (h : NamesRow v) : IntOp.cmpi .sle (wrap v) 99999#32 = 1#1 := by
  rw [IntOp.cmpi_sle, show (99999#32 : BitVec 32).toInt = 99999 from by decide]
  exact (wrap_toInt h).2

/-- Read unsigned it is a row number. -/
theorem wrap_toNat_lt {v : BitVec 32} (h : NamesRow v) : (wrap v).toNat < 100000 := by
  have h' := wrap_toInt h
  rw [BitVec.toInt_eq_toNat_cond] at h'
  have := (wrap v).isLt
  split_ifs at h' with hc <;> omega

end Cert.EdgeLength
-- ==== Proof.Domain.lean ====
/-
  What the stated domain says of the two index arrays. The precondition is one bit: the conjunction of "every
  table entry is finite", "every word of the first index array is at least -100000 and below 100000, read signed"
  and the same of the second index array, each an "all" over its array. When the bit is 1 each conjunct is 1, an
  "all" that is 1 had a 1 at every position, and the two comparisons at a position say that the word there names
  a row. The finiteness conjunct is not used: nothing in the edge length's formula needs it.
-/
import proofs.«426403_j17428977287232_3_alg».proof.Pre_finite_inputs
import proofs.«426403_j17428977287232_3_alg».proof.Proof.Gen.Pre_finite_inputs
import Idealize.ShloMosaic.Lib.ReduceAll
import Idealize.ShloMosaic.Lib.ValueIdx
import proofs.«426403_j17428977287232_3_alg».proof.Proof.WrapIndex

noncomputable section

namespace Cert.EdgeLength.Domain

open Cert.Pre_finite_inputs Cert.Pre_finite_inputs.Gen
open Idealize.ShloMosaic Idealize.ShloMosaic.ValueIdx Cert.EdgeLength

variable {F : FTy → Type} [FloatOps F]

/-- The scalar shape has one index. -/
instance : Subsingleton S_.Idx := ⟨fun _ _ => funext fun d => d.elim0⟩

/-- An "all" of the two range comparisons of an index array that came out 1: every word names a row. -/
theorem namesRow_of_all (v : IVec S6400000 32)
    (h : Host.reduce IntOp.andi
        (andi (cmpi CmpIPredicate.sge v (broadcastInDim S6400000 ![] bcast_S_S6400000 (constantI S_ 32 4294867296#32)))
          (cmpi CmpIPredicate.slt v (broadcastInDim S6400000 ![] bcast_S_S6400000 (constantI S_ 32 100000#32))))
        (constantI S_ 1 1#1) reducesTo_S6400000_S_d0 h_S_ ix0 = 1#1)
    (p : Fin 6400000) : NamesRow (v (ix1 p)) := by
  have hp := Host.reduce_andi_all _ _ _ _ _ h (ix1 p)
  change IntOp.andi (IntOp.cmpi .sge (v (ix1 p)) 4294867296#32) (IntOp.cmpi .slt (v (ix1 p)) 100000#32) = 1#1 at hp
  obtain ⟨h1, h2⟩ := IntOp.andi_eq_one.1 hp
  exact namesRow_of_cmp h1 h2

/-- Under the stated domain every word of both index arrays names a row of the table. -/
theorem names_rows (R : FVec F S100000x3 .f32) (ii jj : IVec S6400000 32)
    (h : Cert.Pre_finite_inputs.fn (F := F) R ii jj = fun _ => 1#1) :
    (∀ p : Fin 6400000, NamesRow (ii (ix1 p))) ∧ (∀ p : Fin 6400000, NamesRow (jj (ix1 p))) := by
  have h0 := congrFun h ix0
  dsimp only [fn, fn_part1] at h0
  change IntOp.andi (IntOp.andi _ _) _ = 1#1 at h0
  obtain ⟨h01, hj⟩ := IntOp.andi_eq_one.1 h0
  obtain ⟨-, hi⟩ := IntOp.andi_eq_one.1 h01
  exact ⟨namesRow_of_all ii hi, namesRow_of_all jj hj⟩

end Cert.EdgeLength.Domain
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.Spec.lean ====
/-
  The length of every edge of a graph laid over a table of points. The table R has 100000 rows of three
  coordinates; an edge e joins the rows its two 32-bit words ii e and jj e name (a negative word counts rows from
  the back). Its length is the square root of the sum, over the three coordinates, of the squared difference of
  the two rows. Everything is over the extended reals: a difference, a product and a sum are the extended reals'
  own, and no law beyond the associativity of addition and 0 + x = x is used, so the formula is read the same
  whether or not the table's entries are finite.
-/
import Idealize.ShloMosaic.Lib.ValueIdx
import Idealize.ShloMosaic.PureOps.Ideal.Laws
import Mathlib.Algebra.BigOperators.Fin
import proofs.«426403_j17428977287232_3_alg».proof.Proof.WrapIndex

noncomputable section

open scoped BigOperators

namespace Cert.EdgeLength

open Idealize.ShloMosaic Idealize.ShloMosaic.ValueIdx

/-- The table of points: 100000 rows, three coordinates. -/
abbrev TableShape : Shape := ⟨2, ![100000, 3]⟩
/-- One entry per edge. -/
abbrev EdgesShape : Shape := ⟨1, ![6400000]⟩

/-- The row a word names: its wrapped word read unsigned. (The bound by 99999 only makes the definition total;
    for a word that names a row it changes nothing: rowOf_val.) -/
def rowOf (v : BitVec 32) : Fin 100000 := ⟨min (wrap v).toNat 99999, by omega⟩

theorem rowOf_val {v : BitVec 32} (h : NamesRow v) : (rowOf v).val = (wrap v).toNat := by
  have := wrap_toNat_lt h
  show min (wrap v).toNat 99999 = (wrap v).toNat
  omega

/-- The squared difference of coordinate k of rows a and b. -/
def sqDiff (R : TableShape.Idx → EReal) (a b : Fin 100000) (k : Fin 3) : EReal :=
  (R (ix2 a k) - R (ix2 b k)) * (R (ix2 a k) - R (ix2 b k))

/-- The length of edge e: the root of the three squared coordinate differences of its end rows, the first two
    added, then the third. -/
def edgeLength (R : TableShape.Idx → EReal) (ii jj : EdgesShape.Idx → BitVec 32) : EdgesShape.Idx → EReal :=
  fun e => Ideal.sqrt (sqDiff R (rowOf (ii e)) (rowOf (jj e)) 0 + sqDiff R (rowOf (ii e)) (rowOf (jj e)) 1
    + sqDiff R (rowOf (ii e)) (rowOf (jj e)) 2)

/-- Three terms summed from zero, in order, are the first two added and then the third. -/
theorem zero_add_sum_three (f : Fin 3 → EReal) : (0 : EReal) + ∑ k : Fin 3, f k = f 0 + f 1 + f 2 := by
  rw [zero_add, Fin.sum_univ_three]

end Cert.EdgeLength
-- ==== Proof.ReferenceValue.lean ====
/-
  The reference computes the edge lengths. Its result at edge p is the host's root of the host's sum, from zero
  over the three coordinates k, of the squared difference of entries (p, k) of two gathers of rows of the table.
  Each gather's start index at p is the wrapped word of p's index word; when that word names a row the wrapped
  word is in range, nothing is clamped, and the gather reads coordinate k of the named row. The sum from zero is
  the three squares added in order, and the host's root is the extended reals' root.
-/
import proofs.«426403_j17428977287232_3_alg».proof.Proof.Gen.ReferenceIdeal.Read
import proofs.«426403_j17428977287232_3_alg».proof.Proof.LibScatter
import proofs.«426403_j17428977287232_3_alg».proof.Proof.Spec

noncomputable section

open scoped BigOperators

namespace Cert.EdgeLength.Reference

open Cert.ReferenceIdeal Cert.ReferenceIdeal.Gen Cert.ReferenceIdeal.Read
open Idealize.ShloMosaic Idealize.ShloMosaic.ValueIdx Cert.EdgeLength

/-- The first gather's start index at position p is the wrapped word of the first index array at p. -/
theorem start_first (ii : (⟨S6400000, .i32⟩ : BufTy).Contents (Elt Ideal)) (p : Fin 6400000) :
    val_main_v5 (F := Ideal) ii (ix2 p (0 : Fin 1)) = wrap (ii (ix1 p)) := by
  have e : idx_main_v5 (ix2 p (0 : Fin 1)) = ix1 p := by
    funext a
    match a with
    | ⟨0, _⟩ => rfl
  rw [val_main_v5_apply, e, val_main_v4_apply, val_main_v1_apply, val_main_v3_apply, val_main_v0_apply,
    val_main_v2_apply, val_main_c_apply, val_main_c_0_apply]
  rfl

/-- The second gather's start index at position p is the wrapped word of the second index array at p. -/
theorem start_second (jj : (⟨S6400000, .i32⟩ : BufTy).Contents (Elt Ideal)) (p : Fin 6400000) :
    val_main_v12 (F := Ideal) jj (ix2 p (0 : Fin 1)) = wrap (jj (ix1 p)) := by
  have e : idx_main_v12 (ix2 p (0 : Fin 1)) = ix1 p := by
    funext a
    match a with
    | ⟨0, _⟩ => rfl
  rw [val_main_v12_apply, e, val_main_v11_apply, val_main_v8_apply, val_main_v10_apply, val_main_v7_apply,
    val_main_v9_apply, val_main_c_1_apply, val_main_c_2_apply]
  rfl

/-- The first gather at (p, k) is coordinate k of the row the first index word of p names. -/
theorem gathered_first (R : (⟨S100000x3, .f32⟩ : BufTy).Contents (Elt Ideal))
    (ii : (⟨S6400000, .i32⟩ : BufTy).Contents (Elt Ideal)) (hi : ∀ p : Fin 6400000, NamesRow (ii (ix1 p)))
    (p : Fin 6400000) (k : Fin 3) :
    val_main_v6 (F := Ideal) R ii (ix2 p k) = R (ix2 (rowOf (ii (ix1 p))) k) := by
  have hr : (val_main_v5 (F := Ideal) ii (ix2 p (0 : Fin 1))).toNat < 100000 := by
    rw [start_first]
    exact wrap_toNat_lt (hi p)
  unfold val_main_v6
  refine (Cert.LibScatter.gather_rows _ rfl rfl rfl rfl rfl R _ (by norm_num) p k hr).trans (congrArg R ?_)
  congr 1
  apply Fin.ext
  show (val_main_v5 (F := Ideal) ii (ix2 p (0 : Fin 1))).toNat = (rowOf (ii (ix1 p))).val
  rw [start_first, rowOf_val (hi p)]

/-- The second gather at (p, k) is coordinate k of the row the second index word of p names. -/
theorem gathered_second (R : (⟨S100000x3, .f32⟩ : BufTy).Contents (Elt Ideal))
    (jj : (⟨S6400000, .i32⟩ : BufTy).Contents (Elt Ideal)) (hj : ∀ p : Fin 6400000, NamesRow (jj (ix1 p)))
    (p : Fin 6400000) (k : Fin 3) :
    val_main_v13 (F := Ideal) R jj (ix2 p k) = R (ix2 (rowOf (jj (ix1 p))) k) := by
  have hr : (val_main_v12 (F := Ideal) jj (ix2 p (0 : Fin 1))).toNat < 100000 := by
    rw [start_second]
    exact wrap_toNat_lt (hj p)
  unfold val_main_v13
  refine (Cert.LibScatter.gather_rows _ rfl rfl rfl rfl rfl R _ (by norm_num) p k hr).trans (congrArg R ?_)
  congr 1
  apply Fin.ext
  show (val_main_v12 (F := Ideal) jj (ix2 p (0 : Fin 1))).toNat = (rowOf (jj (ix1 p))).val
  rw [start_second, rowOf_val (hj p)]

/-- The reference's result, when every index word names a row, is the edge lengths. -/
theorem result_eq (R : (⟨S100000x3, .f32⟩ : BufTy).Contents (Elt Ideal))
    (ii jj : (⟨S6400000, .i32⟩ : BufTy).Contents (Elt Ideal))
    (hi : ∀ p : Fin 6400000, NamesRow (ii (ix1 p))) (hj : ∀ p : Fin 6400000, NamesRow (jj (ix1 p))) :
    val_main_v17 (F := Ideal) R ii jj = edgeLength R ii jj := by
  funext e
  obtain ⟨p, rfl⟩ : ∃ p : Fin 6400000, e = ix1 p := ⟨e 0, eq_ix1 e⟩
  have ek : ∀ k : Fin 3, idx_main_v16 (ix1 p) k = ix2 p k := fun k => funext fun a => by
    match a with
    | ⟨0, _⟩ => rfl
    | ⟨1, _⟩ => rfl
  rw [val_main_v17_apply, val_main_v16_apply, val_main_cst_apply]
  simp only [ek, val_main_v15_apply, val_main_v14_apply, gathered_first R ii hi, gathered_second R jj hj,
    Ideal.hostUnary_sqrt_def, Ideal.subf_def, Ideal.mulf_def, Ideal.ofBits_def, Ideal.ofBits_zero_f32]
  rw [zero_add_sum_three]
  rfl

end Cert.EdgeLength.Reference
-- ==== Proof.KernelPayload.lean ====
/-
  The value the kernel body stores, at an index. The body loads a [3, 160000] block of each of its two inputs,
  subtracts, squares, cuts the three rows out as [1, 160000] blocks, adds the first two and then the third, and
  stores the root. At column q of the stored block that is the root of the three squared differences of column q
  of the two loaded blocks.
-/
import proofs.«426403_j17428977287232_3_alg».proof.Proof.Gen.KernelIdeal.Skeleton
import Idealize.ShloMosaic.Lib.Pipeline.Value
import Idealize.ShloMosaic.Lib.ValueIdx

noncomputable section

namespace Cert.EdgeLength.Kernel

open Cert.KernelIdeal Cert.KernelIdeal.Gen
open Idealize.ShloMosaic Idealize.ShloMosaic.ValueIdx

variable {F : FTy → Type} [FloatOps F]

/-- The root of the three squared differences of two triples, the first two squares added, then the third. -/
def rootOfSquares (a b : Fin 3 → F .f32) : F .f32 :=
  FloatOps.sqrt (FloatOps.addf (FloatOps.addf
    (FloatOps.mulf (FloatOps.subf (a 0) (b 0)) (FloatOps.subf (a 0) (b 0)))
    (FloatOps.mulf (FloatOps.subf (a 1) (b 1)) (FloatOps.subf (a 1) (b 1))))
    (FloatOps.mulf (FloatOps.subf (a 2) (b 2)) (FloatOps.subf (a 2) (b 2))))

/-- Row o of a three-row block, cut out as a one-row block, read at column q. -/
theorem slice_row (o : Nat) (ho : o < 3) (v : FVec F S3x160000 .f32) (h : S3x160000.Slices ![o, 0] S1x160000)
    (q : Fin 160000) :
    extractStridedSlice S1x160000 ![o, 0] v h (ix2 (0 : Fin 1) q) = v (ix2 (⟨o, ho⟩ : Fin 3) q) :=
  extractStridedSlice_apply _ v h _ _ fun a => match a with
    | ⟨0, _⟩ => by show o = o + 0; omega
    | ⟨1, _⟩ => by show q.val = 0 + q.val; omega

/-- The stored block at column q: the root of the squared differences of column q of the two loaded blocks. -/
theorem payload_col (x0 x1 : Vec F S3x160000 .f32) (q : Fin 160000) :
    k0_pay1 x0 x1 (ix2 (0 : Fin 1) q) = rootOfSquares (fun k => x0 (ix2 k q)) (fun k => x1 (ix2 k q)) := by
  unfold k0_pay1
  simp only [shapeCast_self]
  show FloatOps.sqrt (FloatOps.addf (FloatOps.addf
      (@extractStridedSlice S3x160000 _ S1x160000 ![0, 0] _ _ (ix2 (0 : Fin 1) q))
      (@extractStridedSlice S3x160000 _ S1x160000 ![1, 0] _ _ (ix2 (0 : Fin 1) q)))
      (@extractStridedSlice S3x160000 _ S1x160000 ![2, 0] _ _ (ix2 (0 : Fin 1) q))) = _
  rw [slice_row 0 (by omega), slice_row 1 (by omega), slice_row 2 (by omega)]
  rfl

/-- The same at any index of the one-row block. -/
theorem payload_apply (x0 x1 : Vec F S3x160000 .f32) (j : S1x160000.Idx) :
    k0_pay1 x0 x1 j = rootOfSquares (fun k => x0 (ix2 k (j 1))) (fun k => x1 (ix2 k (j 1))) := by
  have h0 : j 0 = (0 : Fin 1) := Fin.ext (by
    have h : (j 0).val < 1 := (j 0).isLt
    show (j 0).val = 0
    omega)
  have e : j = ix2 (0 : Fin 1) (j 1) := by
    funext a
    match a with
    | ⟨0, _⟩ => exact h0
    | ⟨1, _⟩ => rfl
  rw [e]
  exact payload_col x0 x1 (j 1)

end Cert.EdgeLength.Kernel
-- ==== Proof.KernelBlocks.lean ====
/-
  What the kernel leaves in its output array, as one function of the two gathered arrays it is launched on. The
  output [1, 6400000] is written in 40 blocks of 160000 columns; at grid point t the body loads block t (all three
  rows, columns 160000 t to 160000 t + 159999) of each input and stores the root of the squared differences,
  column by column, as block t of the output. So entry (0, e) of the output is the root of the three squared
  differences of column e of the two inputs, and since the 40 blocks tile the output the whole array is that
  function.
-/
import proofs.«426403_j17428977287232_3_alg».proof.Proof.Gen.KernelIdeal.Frame
import proofs.«426403_j17428977287232_3_alg».proof.Proof.KernelPayload

set_option maxRecDepth 16384

noncomputable section

namespace Cert.EdgeLength.Kernel

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- The output array as a function of the two input arrays: entry (0, e) is the root of the squared differences
    of column e. -/
def lengths (A B : FVec F S3x6400000 .f32) : FVec F S1x6400000 .f32 := fun i =>
  rootOfSquares (fun k => A (ix2 k (⟨(i 1).val, (i 1).isLt⟩ : Fin 6400000)))
    (fun k => B (ix2 k (⟨(i 1).val, (i 1).isLt⟩ : Fin 6400000)))

theorem zero_offsets : (![0, 0] : Fin 2 → Nat) = fun _ => 0 := funext fun a => by fin_cases a <;> rfl

/-- The printed index maps over the grid: every window's block row is 0, and the inputs' block column is the
    output's. -/
theorem index_facts : ∀ t : Fin cfg0.N, win0_0.index t (0 : Fin 2) = 0
    ∧ win0_0.index t (1 : Fin 2) = win0_2.index t (1 : Fin 2)
    ∧ win0_1.index t (0 : Fin 2) = 0
    ∧ win0_1.index t (1 : Fin 2) = win0_2.index t (1 : Fin 2)
    ∧ win0_2.index t (0 : Fin 2) = 0 :=
  (by decide +kernel : ∀ t : Fin grid0.N, _)

/-- Every one of the 40 block columns of the output is some point's. -/
theorem index_onto : ∀ q : Fin 40, ∃ t : Fin cfg0.N, win0_2.index t = ![0, q.val] :=
  (by decide +kernel : ∀ q : Fin 40, ∃ t : Fin grid0.N, win0_2.index t = ![0, q.val])

/-- For any two arrays: the body's stored block, computed from block t of each, is block t of their lengths. -/
theorem block_eq (A B : FVec F S3x6400000 .f32) (t : Fin cfg0.N) :
    out0_2 (((cfg0.win 0).blk t).view.read (Elt F) A) (((cfg0.win 1).blk t).view.read (Elt F) B)
      = ((cfg0.win 2).blk t).view.read (Elt F) (lengths A B) := by
  unfold out0_2
  rw [View.canon_unit_zero zero_offsets]
  simp only [View.ld_unit_zero (S := S3x160000) zero_offsets]
  obtain ⟨e0, e1, e2, e3, e4⟩ := index_facts t
  funext j
  refine (payload_apply _ _ j).trans ?_
  have hj : (j 1).val < 160000 := (j 1).isLt
  show rootOfSquares (fun k => A (((cfg0.win 0).blk t).view.emb (ix2 k (j 1))))
      (fun k => B (((cfg0.win 1).blk t).view.emb (ix2 k (j 1))))
    = lengths A B (((cfg0.win 2).blk t).view.emb j)
  unfold lengths
  have h0 : ∀ k : Fin 3, ((cfg0.win 0).blk t).view.emb (ix2 k (j 1))
      = ix2 k (⟨((((cfg0.win 2).blk t).view.emb j) 1).val, ((((cfg0.win 2).blk t).view.emb j) 1).isLt⟩ : Fin 6400000) := by
    intro k
    have hk : k.val < 3 := k.isLt
    funext a; apply Fin.ext
    match a with
    | ⟨0, _⟩ => show win0_0.index t (0 : Fin 2) * 3 + 1 * k.val = k.val; omega
    | ⟨1, _⟩ => show win0_0.index t (1 : Fin 2) * 160000 + 1 * (j 1).val = win0_2.index t (1 : Fin 2) * 160000 + 1 * (j 1).val; omega
  have h1 : ∀ k : Fin 3, ((cfg0.win 1).blk t).view.emb (ix2 k (j 1))
      = ix2 k (⟨((((cfg0.win 2).blk t).view.emb j) 1).val, ((((cfg0.win 2).blk t).view.emb j) 1).isLt⟩ : Fin 6400000) := by
    intro k
    have hk : k.val < 3 := k.isLt
    funext a; apply Fin.ext
    match a with
    | ⟨0, _⟩ => show win0_1.index t (0 : Fin 2) * 3 + 1 * k.val = k.val; omega
    | ⟨1, _⟩ => show win0_1.index t (1 : Fin 2) * 160000 + 1 * (j 1).val = win0_2.index t (1 : Fin 2) * 160000 + 1 * (j 1).val; omega
  simp only [h0, h1]

variable (m : (ℓ : Loc nD τ sig) → Buf (Elt F) ℓ)

/-- What point t writes back is block t of the lengths of the two input arrays as the region finds them. -/
theorem flushed_eq (c : Dev nD) (t : Fin cfg0.N) :
    (dats m 0 c).flushed 2 t
      = ((cfg0.win 2).blk t).view.read (Elt F) (lengths (V m c main_v1) (V m c main_v2)) := by
  show (cfg0.win 2).cut (grid0.coords t) ((dats m 0 c).after 2 t) = _
  rw [after0_2]
  exact block_eq (V m c main_v1) (V m c main_v2) t

/-- An index of the output array is in point t's block iff each coordinate is in the block's range on its axis. -/
theorem mem_block (t : Fin cfg0.N) (i : S1x6400000.Idx) :
    i ∈ ((cfg0.win 2).blk t).view.set ↔ ∀ a : Fin 2, win0_2.index t a * S1x160000.size a ≤ (i a).val
      ∧ (i a).val < win0_2.index t a * S1x160000.size a + S1x160000.size a := by
  show i ∈ ((View.whole main_v3).slice (win0_2.rect t)).set ↔ _
  rw [View.set_slice_whole, Rect.mem_set_unit]
  exact Iff.rfl

/-- The 40 blocks tile the output: column e lies in the block of point e / 160000. -/
theorem covered (i : S1x6400000.Idx) :
    ∃ t : Fin cfg0.N, (cfg0.win 2).flush t = true ∧ i ∈ ((cfg0.win 2).blk t).view.set := by
  have hi0 : (i 0).val < 1 := (i 0).isLt
  have hi1 : (i 1).val < 6400000 := (i 1).isLt
  obtain ⟨t, ht⟩ := index_onto ⟨(i 1).val / 160000, by omega⟩
  have q0 : win0_2.index t (0 : Fin 2) = 0 := congrFun ht 0
  have q1 : win0_2.index t (1 : Fin 2) = (i 1).val / 160000 := congrFun ht 1
  refine ⟨t, flush0_2 t, ?_⟩
  rw [mem_block]
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 160000 ≤ (i 1).val
      ∧ (i 1).val < win0_2.index t (1 : Fin 2) * 160000 + 160000
    omega

/-- The output array after the region: the lengths of the two input arrays as the region finds them. -/
theorem final (c : Dev nD) : (dats m 0 c).arrAt 2 cfg0.N = lengths (V m c main_v1) (V m c main_v2) :=
  (dats m 0 c).arrAt_eq_of_cover 2 _ (fun t _ => flushed_eq m c t) covered

end Cert.EdgeLength.Kernel
-- ==== Proof.LibGatherCols.lean ====
/-
  The host's gather READ AT AN INDEX for a take along axis 1 of a table kept as columns: an operand [C, N] (C
  coordinates, N table entries), start indices [M, 1] and a result [C, M]; the coordinate axis is the one offset
  axis, the entry axis is collapsed and start-indexed, the index vector sits on axis 1 of the start indices. The
  lemma is over an arbitrary dimension-number record whose fields are fixed by hypotheses, each closed by rfl on
  a program's own record.

  gather_cols: the gather at (c, j), when position j's start index is in range, is the operand at coordinate c of
  the entry that index names (in range nothing is clamped).
-/
import Idealize.ShloMosaic.Lib.ValueIdx
import Idealize.ShloMosaic.Lib.StableHlo.Predicate

noncomputable section

namespace Cert.LibGatherCols

open Idealize.ShloMosaic Idealize.ShloMosaic.ValueIdx

section Cols
variable {C N M w : Nat} (d : GatherDims ⟨2, ![C, N]⟩ ⟨2, ![M, 1]⟩ ⟨2, ![C, M]⟩)
  (hoff : d.offsetDims = [0]) (hcoll : d.collapsedSliceDims = [1]) (hob : d.operandBatchingDims = [])
  (hsim : d.startIndexMap = [1]) (hivd : d.indexVectorDim = 1) (c : Fin C) (j : Fin M)
include hoff hcoll hob hsim hivd

/-- Result position (c, j) reads its start index at (j, 0) of the start indices. -/
theorem siIdx_cols (k : Fin d.startIndexMap.length) : d.siIdx (ix2 c j) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the coordinate axis the offset coordinate is the result's coordinate. -/
theorem offCoord_cols_zero : d.offCoord (ix2 c j) 0 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end Cols

/-- The gather of COLUMNS from [C, N], N < 2³¹, at 32-bit start indices [M, 1] (the entry axis collapsed and
    start-indexed, the coordinate axis the one offset axis, the index vector on axis 1), read at (c, j) when
    position j's start index is in range: the operand at coordinate c of that entry. -/
theorem gather_cols {α : Type} {C N M : Nat} (d : GatherDims ⟨2, ![C, N]⟩ ⟨2, ![M, 1]⟩ ⟨2, ![C, M]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![M, 1]⟩ 32) (hN : N < 2 ^ 31) (c : Fin C) (j : Fin M)
    (hr : (idx (ix2 j (0 : Fin 1))).toNat < N) :
    Host.gather d x idx (ix2 c j) = x (ix2 c ⟨(idx (ix2 j (0 : Fin 1))).toNat, hr⟩) := by
  have hb : ∀ a, a ∉ d.operandBatchingDims := by
    intro a
    rw [hob]
    exact List.not_mem_nil
  have hsl : d.sliceSizes 1 = 1 := d.slice_collapsed 1 (by rw [hcoll]; exact List.mem_singleton.mpr rfl)
  unfold Host.gather
  congr 1
  funext a
  apply Fin.ext
  revert a
  refine Fin.forall_fin_two.mpr ⟨?_, ?_⟩
  · show d.start (ix2 c j) idx 0 + d.batchCoord (ix2 c j) 0 + d.offCoord (ix2 c j) 0 = c.val
    rw [d.batchCoord_eq_zero _ _ (hb _), offCoord_cols_zero d hoff hcoll hob hsim hivd]
    unfold GatherDims.start
    rw [dif_neg (by rw [hsim]; simp)]
    omega
  · show d.start (ix2 c j) idx 1 + d.batchCoord (ix2 c j) 1 + d.offCoord (ix2 c j) 1
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_cols d hoff hcoll hob hsim hivd, hsl,
      StableHlo.Predicate.toInt_eq_toNat_of_lt (by omega), Int.toNat_natCast]
    show min (idx (ix2 j (0 : Fin 1))).toNat (N - 1) + 0 + 0 = _
    omega

end Cert.LibGatherCols
-- ==== Proof.KernelTake.lean ====
/-
  The filling take the kernel applies to the transposed table, read at an index. Given the table as columns
  T : [3, 100000] and an index array, it wraps each index word (100000 added to a negative one), gathers the
  column the wrapped word names (the gather clamps a word outside [0, 99999]), and, where the wrapped word is
  outside [0, 99999], puts a fill value in place of the gathered column. When every index word names a row, no
  wrapped word is outside the range: the range mask is all ones, the fill is never chosen, nothing is clamped,
  and entry (k, p) of the result is coordinate k of the column that the wrapped word of position p names.
-/
import proofs.«426403_j17428977287232_3_alg».proof.Proof.Gen.KernelIdeal
import Idealize.ShloMosaic.Lib.Pipeline.Value
import Idealize.ShloMosaic.Lib.ValueIdx
import proofs.«426403_j17428977287232_3_alg».proof.Proof.LibGatherCols
import proofs.«426403_j17428977287232_3_alg».proof.Proof.WrapIndex

noncomputable section

namespace Cert.EdgeLength.Kernel

open Cert.KernelIdeal Cert.KernelIdeal.Gen
open Idealize.ShloMosaic Idealize.ShloMosaic.ValueIdx Cert.EdgeLength

variable {F : FTy → Type} [FloatOps F]

/-- The start indices of the gather: the wrapped index words, as a column. -/
def startCol (idx : IVec S6400000 32) : IVec S6400000x1 32 :=
  broadcastInDim S6400000x1 ![0] bcast_S6400000_S6400000x1_0
    (select (cmpi .slt idx (broadcastInDim S6400000 ![] bcast_S_S6400000 (constantI S_ 32 0#32)))
      (addi idx (broadcastInDim S6400000 ![] bcast_S_S6400000 (constantI S_ 32 100000#32))) idx)

/-- The range mask: 1 at a position whose wrapped word lies in [0, 99999]. -/
def inTable (idx : IVec S6400000 32) : IVec S6400000 1 :=
  Host.reduce IntOp.andi
    (andi (cmpi .sge (startCol idx) (broadcastInDim S6400000x1 ![] bcast_S_S6400000x1 (constantI S_ 32 0#32)))
      (cmpi .sle (startCol idx) (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The filling take of columns of T at the index array. -/
def takeCols (T : FVec F S3x100000 .f32) (idx : IVec S6400000 32) : FVec F S3x6400000 .f32 :=
  select (broadcastInDim S3x6400000 ![1] bcast_S6400000_S3x6400000_1 (inTable idx))
    (Host.gather gather_S3x100000_S6400000x1_S3x6400000_0_1_n_n_1_1_31 T (startCol idx))
    (broadcastInDim S3x6400000 ![] bcast_S_S3x6400000 (constant S_ .f32 0x7FC00000#32))

/-- The start index of position p is the wrapped word of the index array at p. -/
theorem startCol_apply (idx : IVec S6400000 32) (p : Fin 6400000) :
    startCol idx (ix2 p (0 : Fin 1)) = wrap (idx (ix1 p)) := by
  unfold startCol
  rw [broadcastInDim_apply _ _ _ (ix2 p (0 : Fin 1)) (ix1 p) (fun a => match a with
    | ⟨0, _⟩ => by show p.val = if (6400000 : Nat) = 1 then 0 else p.val; rw [if_neg (by decide)])]
  rfl

/-- An "all" over a mask of ones, from 1, is 1. -/
theorem reduce_andi_of_all {s t u : Shape} {axes : List (Fin s.rank)} (x : s.Idx → BitVec 1)
    (init : u.Idx → BitVec 1) (h : s.ReducesTo axes t) (hu : 0 < u.numel) (hx : ∀ i, x i = 1#1)
    (hinit : init (Shape.Idx.first hu) = 1#1) (j : t.Idx) : Host.reduce IntOp.andi x init h hu j = 1#1 := by
  unfold Host.reduce
  rw [hinit]
  generalize (List.finRange s.numel).filter (fun n => h.drop (s.rowMajor.symm n) = j) = l
  induction l with
  | nil => rfl
  | cons a l ih =>
    rw [List.foldl_cons, hx, show IntOp.andi 1#1 1#1 = 1#1 from by decide]
    exact ih

/-- When every index word names a row, the range mask is 1 at every position. -/
theorem inTable_apply (idx : IVec S6400000 32) (h : ∀ p : Fin 6400000, NamesRow (idx (ix1 p))) (p : Fin 6400000) :
    inTable idx (ix1 p) = 1#1 := by
  unfold inTable
  refine reduce_andi_of_all _ _ _ _ (fun i => ?_) rfl _
  obtain ⟨q, z, rfl⟩ : ∃ (q : Fin 6400000) (z : Fin 1), i = ix2 q z := ⟨i 0, i 1, eq_ix2 i⟩
  obtain rfl : z = 0 := Subsingleton.elim _ _
  show IntOp.andi (IntOp.cmpi .sge (startCol idx (ix2 q (0 : Fin 1))) 0#32)
    (IntOp.cmpi .sle (startCol idx (ix2 q (0 : Fin 1))) 99999#32) = 1#1
  rw [startCol_apply]
  exact IntOp.andi_eq_one.2 ⟨wrap_sge (h q), wrap_sle (h q)⟩

/-- When every index word names a row, entry (k, p) of the take is coordinate k of the column the wrapped word of
    position p names. -/
theorem takeCols_apply (T : FVec F S3x100000 .f32) (idx : IVec S6400000 32)
    (h : ∀ p : Fin 6400000, NamesRow (idx (ix1 p))) (k : Fin 3) (p : Fin 6400000) :
    takeCols T idx (ix2 k p) = T (ix2 k (⟨(wrap (idx (ix1 p))).toNat, wrap_toNat_lt (h p)⟩ : Fin 100000)) := by
  have hr : (startCol idx (ix2 p (0 : Fin 1))).toNat < 100000 := by
    rw [startCol_apply]
    exact wrap_toNat_lt (h p)
  unfold takeCols
  rw [select_apply, broadcastInDim_apply _ _ (inTable idx) (ix2 k p) (ix1 p) (fun a => match a with
    | ⟨0, _⟩ => by show p.val = if (6400000 : Nat) = 1 then 0 else p.val; rw [if_neg (by decide)]),
    inTable_apply idx h p, select_of_one rfl]
  refine (Cert.LibGatherCols.gather_cols _ rfl rfl rfl rfl rfl T (startCol idx) (by norm_num) k p hr).trans
    (congrArg T ?_)
  congr 1
  apply Fin.ext
  show (startCol idx (ix2 p (0 : Fin 1))).toNat = (wrap (idx (ix1 p))).toNat
  rw [startCol_apply]

end Cert.EdgeLength.Kernel
-- ==== Proof.KernelEntry.lean ====
/-
  The two arrays the kernel is launched on, as the region finds them. Before the launch the program transposes
  the table into columns and applies the filling take to it twice, once with each index array; no later line
  before the launch writes either result. So the first input is the take of the table's columns at the first
  index array, and the second input the take at the second.

  The take's lines are written over typed references: each line's result is carried to its buffer's own type and
  back where the next line reads it. Those carryings are the identity (the buffer's type IS the value's), which is
  said once for any typed reference (a round trip) and once for each of the five buffers that are read or written
  only one way.
-/
import proofs.«426403_j17428977287232_3_alg».proof.Proof.Gen.KernelIdeal.Frame
import Idealize.ShloMosaic.Lib.StableHlo.Run
import proofs.«426403_j17428977287232_3_alg».proof.Proof.KernelTake

set_option maxRecDepth 16384

noncomputable section

namespace Cert.EdgeLength.Kernel

open Cert.KernelIdeal Cert.KernelIdeal.Gen
open Idealize.ShloMosaic Idealize.ShloMosaic.TcCoe Idealize.SL.Sem Idealize.ShloMosaic.StableHlo

/-- Contents carried to a typed reference's buffer and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

variable {F : FTy → Type} [FloatOps F]

/-- The first index array read at its own type is itself. -/
theorem ofBuf_arg1 (h1 h2 h3) (v : IVec S6400000 32) :
    (TRef.of (T := ⟨S6400000, .i32⟩) main_arg1 h1 h2 h3).ofBuf (Val := Elt F) v = v := rfl
/-- The second index array read at its own type is itself. -/
theorem ofBuf_arg2 (h1 h2 h3) (v : IVec S6400000 32) :
    (TRef.of (T := ⟨S6400000, .i32⟩) main_arg2 h1 h2 h3).ofBuf (Val := Elt F) v = v := rfl
/-- The transposed table read at its own type is itself. -/
theorem ofBuf_v0 (h1 h2 h3) (v : FVec F S3x100000 .f32) :
    (TRef.of (T := ⟨S3x100000, .f32⟩) main_v0 h1 h2 h3).ofBuf (Val := Elt F) v = v := rfl
/-- The first take's result written at its own type is itself. -/
theorem toBuf_v1 (h1 h2 h3) (v : FVec F S3x6400000 .f32) :
    (TRef.of (T := ⟨S3x6400000, .f32⟩) main_v1 h1 h2 h3).toBuf (Val := Elt F) v = v := rfl
/-- The second take's result written at its own type is itself. -/
theorem toBuf_v2 (h1 h2 h3) (v : FVec F S3x6400000 .f32) :
    (TRef.of (T := ⟨S3x6400000, .f32⟩) main_v2 h1 h2 h3).toBuf (Val := Elt F) v = v := rfl

variable (m : (ℓ : Loc nD τ sig) → Buf (Elt F) ℓ)

/-- The table as launched, transposed into columns. -/
def tableCols (c : Dev nD) : FVec F S3x100000 .f32 :=
  transpose S3x100000 [1, 0] (m ((c.tc : Thread nD τ).loc main_arg0)) transposes_S100000x3_S3x100000_1_0

set_option maxHeartbeats 8000000 in
/-- The first input: the take of the table's columns at the first index array. -/
theorem first_input (c : Dev nD) :
    (V m c main_v1 : S3x6400000.Idx → Elt F .f32)
      = takeCols (tableCols m c) (m ((c.tc : Thread nD τ).loc main_arg1)) := by
  dsimp only [V, V0]
  simp only [hostOps0, hostOps0_1, hostOps0_2, List.flatten_cons, List.flatten_nil, List.append_nil,
    List.cons_append, List.nil_append]
  after_results
  simp only [ofBuf_toBuf, ofBuf_arg1, ofBuf_v0, toBuf_v1]
  unfold takeCols inTable startCol tableCols
  rfl

set_option maxHeartbeats 8000000 in
/-- The second input: the take of the table's columns at the second index array. -/
theorem second_input (c : Dev nD) :
    (V m c main_v2 : S3x6400000.Idx → Elt F .f32)
      = takeCols (tableCols m c) (m ((c.tc : Thread nD τ).loc main_arg2)) := by
  dsimp only [V, V0]
  simp only [hostOps0, hostOps0_1, hostOps0_2, List.flatten_cons, List.flatten_nil, List.append_nil,
    List.cons_append, List.nil_append]
  after_results
  simp only [ofBuf_toBuf, ofBuf_arg2, ofBuf_v0, toBuf_v2]
  unfold takeCols inTable startCol tableCols
  rfl

end Cert.EdgeLength.Kernel
-- ==== Proof.KernelRun.lean ====
/-
  The kernel's run, read. After the region the program reshapes the output [1, 6400000] to [6400000]; entry e of
  the result is entry (0, e) of the output, the root of the three squared differences of column e of the two
  inputs. The inputs are the filling takes of the table's columns at the two index arrays; when every index word
  names a row, column e of the first input holds the three coordinates of the row the first word of edge e names,
  and likewise the second. So the result is the edge lengths, and the run leaves the three arguments unchanged.
-/
import proofs.«426403_j17428977287232_3_alg».proof.Proof.KernelBlocks
import proofs.«426403_j17428977287232_3_alg».proof.Proof.KernelEntry
import proofs.«426403_j17428977287232_3_alg».proof.Proof.Spec
import Idealize.ShloMosaic.Lib.StableHlo.Run

set_option maxRecDepth 16384

noncomputable section

namespace Cert.EdgeLength.Kernel

open Cert.KernelIdeal Cert.KernelIdeal.Gen
open Idealize.ShloMosaic Idealize.ShloMosaic.TcCoe Idealize.SL.Sem Idealize.ShloMosaic.StableHlo
open Idealize.ShloMosaic.ValueIdx Cert.EdgeLength

section Tail
variable {F : FTy → Type} [FloatOps F]
variable (m : (ℓ : Loc nD τ sig) → Buf (Elt F) ℓ)

/-- Entry (0, p) of the lengths of two arrays is the root of the squared differences of their column p. -/
theorem lengths_apply (A B : FVec F S3x6400000 .f32) (p : Fin 6400000) :
    lengths A B (ix2 (0 : Fin 1) p) = rootOfSquares (fun k => A (ix2 k p)) (fun k => B (ix2 k p)) := rfl

/-- The program's result after the lines that follow the region: the output array, reshaped to a vector. -/
theorem tail_eq (c : Dev nD) :
    (Pipeline.afterTail₀ cfgs (dats m) 0 (V0 m) [hostOps1] c main_v4 : S6400000.Idx → Elt F .f32)
      = shapeCast S6400000 (lengths (V m c main_v1) (V m c main_v2)) shapeCasts_S1x6400000_S6400000 := by
  have e : Pipeline.withArrays (cfgs 0).spec c (V0 m c) (fun w => (dats m 0 c).arrAt w (cfgs 0).N)
      (Proc.devRef .tc main_v3) = lengths (V m c main_v1) (V m c main_v2) :=
    (Pipeline.withArrays_arr spec0 launch0.win.arr_inj c _ _ 2).trans (final m c)
  unfold Pipeline.afterTail₀
  show StableHlo.after hostOps1 _ (Proc.devRef .tc main_v4) = _
  after_results
  rw [e]
  rfl

end Tail

section AtIdeal
variable (m : (ℓ : Loc nD τ sig) → Buf (Elt Ideal) ℓ)

/-- When every word of the index array names a row, entry (k, p) of the take of the table's columns is coordinate
    k of the row of the table that word p names. -/
theorem take_table (c : Dev nD) (idx : IVec S6400000 32) (h : ∀ p : Fin 6400000, NamesRow (idx (ix1 p)))
    (k : Fin 3) (p : Fin 6400000) :
    takeCols (tableCols m c) idx (ix2 k p)
      = m ((c.tc : Thread nD τ).loc main_arg0) (ix2 (rowOf (idx (ix1 p))) k) := by
  rw [takeCols_apply _ idx h k p]
  unfold tableCols
  exact transpose_apply _ _ _ _ (ix2 (rowOf (idx (ix1 p))) k) fun b => match b with
    | ⟨0, _⟩ => rfl
    | ⟨1, _⟩ => rowOf_val (h p)

/-- For any two input arrays whose column p holds the coordinates of the rows that edge p's two words name, the
    reshaped lengths are the edge lengths. -/
theorem result_of_columns (A B : FVec Ideal S3x6400000 .f32) (R : FVec Ideal S100000x3 .f32)
    (ii jj : IVec S6400000 32)
    (hA : ∀ (k : Fin 3) (p : Fin 6400000), A (ix2 k p) = R (ix2 (rowOf (ii (ix1 p))) k))
    (hB : ∀ (k : Fin 3) (p : Fin 6400000), B (ix2 k p) = R (ix2 (rowOf (jj (ix1 p))) k)) :
    shapeCast S6400000 (lengths (F := Ideal) A B) shapeCasts_S1x6400000_S6400000 = edgeLength R ii jj := by
  funext e
  obtain ⟨p, rfl⟩ : ∃ p : Fin 6400000, e = ix1 p := ⟨e 0, eq_ix1 e⟩
  rw [shapeCast_apply _ _ (ix1 p) (ix2 (0 : Fin 1) p) (by
    rw [Shape.rowMajor_val_two, Shape.rowMajor_val_one]
    show 0 * 6400000 + p.val = p.val
    omega)]
  rw [lengths_apply]
  unfold rootOfSquares
  simp only [hA, hB]
  rfl

/-- Column p of the first input holds the coordinates of the row the first word of edge p names. -/
theorem first_column (c : Dev nD)
    (hi : ∀ p : Fin 6400000, NamesRow (m ((c.tc : Thread nD τ).loc main_arg1) (ix1 p)))
    (k : Fin 3) (p : Fin 6400000) :
    V m c main_v1 (ix2 k p)
      = m ((c.tc : Thread nD τ).loc main_arg0) (ix2 (rowOf (m ((c.tc : Thread nD τ).loc main_arg1) (ix1 p))) k) :=
  (congrFun (first_input m c) (ix2 k p)).trans (take_table m c _ hi k p)

/-- Column p of the second input holds the coordinates of the row the second word of edge p names. -/
theorem second_column (c : Dev nD)
    (hj : ∀ p : Fin 6400000, NamesRow (m ((c.tc : Thread nD τ).loc main_arg2) (ix1 p)))
    (k : Fin 3) (p : Fin 6400000) :
    V m c main_v2 (ix2 k p)
      = m ((c.tc : Thread nD τ).loc main_arg0) (ix2 (rowOf (m ((c.tc : Thread nD τ).loc main_arg2) (ix1 p))) k) :=
  (congrFun (second_input m c) (ix2 k p)).trans (take_table m c _ hj k p)

/-- THE KERNEL'S RUN: under the stated domain every weakly fair execution ends with the result buffer at the edge
    lengths of the arguments, and the arguments unchanged. -/
theorem run (ρ : Dev nD → PrngReg)
    (hi : ∀ (c : Dev nD) (p : Fin 6400000), NamesRow (m ((c.tc : Thread nD τ).loc main_arg1) (ix1 p)))
    (hj : ∀ (c : Dev nD) (p : Fin 6400000), NamesRow (m ((c.tc : Thread nD τ).loc main_arg2) (ix1 p))) :
    θ_run defs (onTc (τ := τ) (main (F := Ideal))) ⟨m, fun _ => 0, ρ⟩ (fun r => ∀ c : Dev nD,
      r.2.mem ((c.tc : Thread nD τ).loc main_v4)
        = edgeLength (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans
        ((tail_eq m c).trans (result_of_columns (V m c main_v1) (V m c main_v2) _ _ _
          (first_column m c (hi c)) (second_column m c (hj c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end AtIdeal

end Cert.EdgeLength.Kernel
-- ==== Proof.lean ====
/-
  Edge lengths of a graph over a table of points: the kernel against its reference, over the extended reals.

  The table R has 100000 rows of three coordinates; each of 6400000 edges joins the two rows named by its words in
  two 32-bit index arrays, a negative word counting rows from the back. The length of an edge is the root of the
  sum of the three squared coordinate differences of its end rows.

  The reference gathers the two end rows of every edge, subtracts, squares, sums the three squares from zero and
  takes the root. The kernel program transposes the table into three columns, takes the end columns of every edge
  with a take that FILLS where an index is out of range, and launches a kernel over 40 blocks of 160000 edges that
  subtracts, squares, adds the three rows pairwise and takes the root; the [1, 6400000] output is then reshaped to
  a vector.

  The two agree exactly on the index words that name a row (read signed, in [-100000, 100000)): outside that range
  the reference's gather clamps the row number while the kernel's take fills, so the stated domain asks, besides a
  finite table, that every index word name a row. Inside it both gathers read the same row, nothing is clamped or
  filled, and the two results are the same expression up to the order in which three extended reals are added:
  (s0 + s1) + s2 on the kernel's side, 0 + (s0 + s1 + s2) on the reference's. No other law is needed, so the
  finiteness of the table is not used.

  The three frames are the generated frame runs (the reference's is its generated run with the result dropped);
  the idealization rewrote nothing, so there is nothing to preserve.
-/
import proofs.«426403_j17428977287232_3_alg».proof.Defs
import proofs.«426403_j17428977287232_3_alg».proof.Proof.Gen.Kernel
import proofs.«426403_j17428977287232_3_alg».proof.Proof.Gen.Kernel.Skeleton
import proofs.«426403_j17428977287232_3_alg».proof.Proof.Gen.Kernel.Launch
import proofs.«426403_j17428977287232_3_alg».proof.Proof.Gen.Kernel.Points
import proofs.«426403_j17428977287232_3_alg».proof.Proof.Gen.Kernel.Frame
import proofs.«426403_j17428977287232_3_alg».proof.Proof.Gen.KernelIdeal
import proofs.«426403_j17428977287232_3_alg».proof.Proof.Gen.KernelIdeal.Skeleton
import proofs.«426403_j17428977287232_3_alg».proof.Proof.Gen.KernelIdeal.Launch
import proofs.«426403_j17428977287232_3_alg».proof.Proof.Gen.KernelIdeal.Points
import proofs.«426403_j17428977287232_3_alg».proof.Proof.Gen.KernelIdeal.Frame
import proofs.«426403_j17428977287232_3_alg».proof.Proof.Gen.ReferenceIdeal
import proofs.«426403_j17428977287232_3_alg».proof.Proof.Gen.Pre_finite_inputs
import proofs.«426403_j17428977287232_3_alg».proof.Proof.Gen.ReferenceIdeal.Run
import proofs.«426403_j17428977287232_3_alg».proof.Proof.Gen.ReferenceIdeal.Read
import proofs.«426403_j17428977287232_3_alg».proof.Proof.Domain
import proofs.«426403_j17428977287232_3_alg».proof.Proof.ReferenceValue
import proofs.«426403_j17428977287232_3_alg».proof.Proof.KernelRun
import Idealize.ShloMosaic.Adequacy
import Idealize.ShloMosaic.Init

noncomputable section

namespace Cert.Proof

open Idealize.ShloMosaic Idealize.SL.Sem Idealize.ShloMosaic.ValueIdx Cert.EdgeLength

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The idealized reference runs and keeps its arguments: its generated run, the result dropped. -/
theorem frame_reference : Cert.frame_ReferenceIdeal := fun m ρ _ =>
  (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments and lie in the stated domain, both programs end with the edge
    lengths of the arguments in their result buffers: the kernel's run read through its blocks and its two takes,
    the reference's run read through its two gathers, each under "every index word names a row", which the domain
    gives. -/
theorem algebraic : Cert.algebraic_KernelIdeal_ReferenceIdeal := by
  intro m ρ m' ρ' hpre hagree
  have hdom := fun c : Dev Cert.KernelIdeal.nD => Cert.EdgeLength.Domain.names_rows (F := Ideal) _ _ _ (hpre c)
  refine ⟨fun c => edgeLength
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.EdgeLength.Kernel.run m ρ (fun c => (hdom c).1) (fun c => (hdom c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact Cert.EdgeLength.Reference.result_eq _ _ _ (hdom c).1 (hdom c).2

theorem claim : Cert.Claim :=
  ⟨Cert.Kernel.Gen.facts, Cert.KernelIdeal.Gen.facts, Cert.ReferenceIdeal.Gen.facts,
    Cert.Pre_finite_inputs.Gen.facts, frame_kernel, frame_kernelIdeal, frame_reference, preserves, algebraic⟩

end Cert.Proof

end
